-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x4096 : Shape := ⟨2, ![4096, 4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4096x1024 .f32) (main_arg1 : FVec F S4096x4096 .f32) (main_arg2 : FVec F S4096x4096 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S4096x1024 : Shape := ⟨2, ![4096, 1024]⟩
abbrev S4096x4096 : Shape := ⟨2, ![4096, 4096]⟩
abbrev S512x4096 : Shape := ⟨2, ![512, 4096]⟩
abbrev S512x1024 : Shape := ⟨2, ![512, 1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x4096, .f32⟩
  | .hbm, ⟨3, _⟩ => ⟨S4096x1024, .bf16⟩
  | .hbm, ⟨4, _⟩ => ⟨S4096x1024, .bf16⟩
  | .hbm, ⟨5, _⟩ => ⟨S4096x1024, .f32⟩
  | .local _ .vmem, ⟨0, _⟩ => ⟨S512x4096, .f32⟩
  | .local _ .vmem, ⟨1, _⟩ => ⟨S512x4096, .f32⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | .local _ .vmem, ⟨5, _⟩ => ⟨S512x4096, .f32⟩
  | .local _ .vmem, ⟨6, _⟩ => ⟨S512x4096, .f32⟩
  | .local _ .vmem, ⟨7, _⟩ => ⟨S4096x1024, .bf16⟩
  | .local _ .vmem, ⟨8, _⟩ => ⟨S512x1024, .f32⟩
  | .local _ .vmem, ⟨9, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S512x1024_S512x1024_0_0 : ∀ a, (![0, 0] : Fin 2 → Nat) a + S512x1024.size a ≤ S512x1024.size a
  h_S512x1024 : 0 < S512x1024.numel
  packedbf16_S512x1024_S512x1024_0_0 : (Rect.unit (s := S512x1024) ![0, 0] S512x1024.size inb_S512x1024_S512x1024_0_0).PackedRows (EltTy.packing .bf16)
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x1024.size a
  hwx0_2 : ∀ i : grid0.Coords, EltTy.bits .bf16 = 32 ∨ (Rect.block (s := S4096x1024) S512x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x1024.size a ≤ S4096x1024.size a
  hwx1_1 : ∀ i : grid1.Coords, EltTy.bits .bf16 = 32 ∨ (Rect.block (s := S4096x1024) S4096x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S4096x1024.size a
  hwx1_2 : ∀ i : grid1.Coords, EltTy.bits .f32 = 32 ∨ (Rect.block (s := S4096x1024) S512x1024.size (cc1_transform_2 i) (hinb1_2 i)).WholeWords (EltTy.packing .f32)

variable [Facts₀]

def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_arg2) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S4096x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S512x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x1024 : Shape := ⟨2, ![4096, 1024]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x4096, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S4096x4096_S4096x1024_S4096x1024_1_0_0_1_n_n_wf : DotDims.WF S4096x4096 S4096x1024 S4096x1024 [1] [0] [0] [1] [] []

variable [Facts₀]

def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.LibPlainDot.lean ====
/-
  A plain two-dimensional matrix product read at an index.

  For the dimension numbers "rows × contraction times contraction × columns" (no batch axis) the operand indices at the
  output index (p, q) and contraction index k are (p, k) and (k, q); so at the extended reals a `tpu.matmul` into the
  zero accumulator and a host `dot_general` are both  Σ_k l(p, k) · r(k, q),  a finite sum over the contracted axis.
  A transposed operand reads its source at the swapped index.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable {M K N : Nat}

/-- The contraction shape of a plain product has one axis. -/
theorem plain_contr_rank : (DotDims.plain M K N).contr.rank = 1 := rfl
/-- Its extent is the shared dimension. -/
theorem plain_contr_size : (DotDims.plain M K N).contr.size ⟨0, by rw [plain_contr_rank]; exact Nat.one_pos⟩ = K := rfl

/-- The left operand's index at output (p, q) and contraction coordinate k is (p, k). -/
theorem plain_lhsIdx (j : (⟨2, ![M, N]⟩ : Shape).Idx) (k : Fin K) :
    (DotDims.plain M K N).lhsIdx j ((contrEquiv1 (DotDims.plain M K N) K plain_contr_rank plain_contr_size).symm k) = ix2 (j 0) k := by
  funext a
  refine Fin.ext ?_
  match a with
  | ⟨0, _⟩ => rfl
  | ⟨1, _⟩ =>
    exact ((DotDims.plain M K N).lhsIdx_val_of_single (cl := 1) rfl j _).trans
      (contrEquiv1_symm_val (DotDims.plain M K N) K plain_contr_rank plain_contr_size k)

/-- The right operand's index is (k, q). -/
theorem plain_rhsIdx (j : (⟨2, ![M, N]⟩ : Shape).Idx) (k : Fin K) :
    (DotDims.plain M K N).rhsIdx j ((contrEquiv1 (DotDims.plain M K N) K plain_contr_rank plain_contr_size).symm k) = ix2 k (j 1) := by
  funext a
  refine Fin.ext ?_
  match a with
  | ⟨0, _⟩ =>
    exact ((DotDims.plain M K N).rhsIdx_val_of_single (cr := 0) rfl j _).trans
      (contrEquiv1_symm_val (DotDims.plain M K N) K plain_contr_rank plain_contr_size k)
  | ⟨1, _⟩ => rfl

/-- The contraction sum of a plain product over its one coordinate. -/
theorem plain_sum (l : (⟨2, ![M, K]⟩ : Shape).Idx → EReal) (r : (⟨2, ![K, N]⟩ : Shape).Idx → EReal) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K plain_contr_rank plain_contr_size).symm]
  exact Finset.sum_congr rfl fun k _ =>
    congrArg₂ (· * ·) (congrArg l (plain_lhsIdx j k)) (congrArg r (plain_rhsIdx j k))

/-- A `tpu.matmul` with plain dimension numbers into the zero accumulator, at an index, whatever the operands' formats. -/
theorem matmul_plain_zero {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    FloatOps.matmul (DotDims.plain M K N) prec l r (constant ⟨2, ![M, N]⟩ .f32 0x00000000#32) j
      = ∑ k : Fin K, (l (ix2 (j 0) k) : EReal) * (r (ix2 k (j 1)) : EReal) := by
  rw [Ideal.matmul_constant_zero_apply]
  exact plain_sum l r j

/-- A host `dot_general` with plain dimension numbers, at an index. -/
theorem dotGeneral_plain {φ₁ φ₂ : FTy} (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral (DotDims.plain M K N) prec sched l r j
      = ∑ k : Fin K, (l (ix2 (j 0) k) : EReal) * (r (ix2 k (j 1)) : EReal) := by
  rw [Ideal.dotGeneral_apply]
  exact plain_sum l r j

/-! ## Layout reads the dense layers need -/

/-- A two-dimensional transpose reads its source at the swapped index. -/
theorem transpose2_apply {α : Type} {A B : Nat} (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) fun c => by
    match c with
    | ⟨0, _⟩ => rfl
    | ⟨1, _⟩ => rfl

/-- A vector recast as a one-row matrix and broadcast down the rows (a kernel's bias) reads, at (p, q), the vector at q. -/
theorem rowBroadcastTo_apply {α : Type} {R C : Nat} (v : (⟨1, ![C]⟩ : Shape).Idx → α)
    (h1 : (⟨1, ![C]⟩ : Shape).ShapeCasts ⟨2, ![1, C]⟩) (h2 : (⟨2, ![1, C]⟩ : Shape).Broadcasts ⟨2, ![R, C]⟩)
    (p : Fin R) (q : Fin C) :
    broadcastTo ⟨2, ![R, C]⟩ (shapeCast ⟨2, ![1, C]⟩ v h1) h2 (ix2 p q) = v (ix1 q) := by
  rw [broadcastTo_apply (shapeCast ⟨2, ![1, C]⟩ v h1) h2 (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact shapeCast_apply v h1 (ix2 (0 : Fin 1) q) (ix1 q) (by
    rw [Shape.rowMajor_val_one, Shape.rowMajor_val_two]
    show q.val = (0 : Nat) * C + q.val
    omega)

/-- The host's form of the same bias: a vector laid along the second axis by two `broadcast_in_dim`s reads, at (p, q), the vector at q. -/
theorem rowBroadcastInDim_apply {α : Type} {R C : Nat} (v : (⟨1, ![C]⟩ : Shape).Idx → α)
    (h1 : (⟨1, ![C]⟩ : Shape).BroadcastsInDim ⟨2, ![1, C]⟩ ![1]) (h2 : (⟨2, ![1, C]⟩ : Shape).BroadcastsInDim ⟨2, ![R, C]⟩ ![0, 1])
    (p : Fin R) (q : Fin C) :
    broadcastInDim ⟨2, ![R, C]⟩ ![0, 1] h2 (broadcastInDim ⟨2, ![1, C]⟩ ![1] h1 v) (ix2 p q) = v (ix1 q) := by
  rw [broadcastInDim_apply ![0, 1] h2 _ (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact broadcastInDim_apply ![1] h1 v (ix2 (0 : Fin 1) q) (ix1 q) (fun a => by
    match a with
    | ⟨0, _⟩ =>
      show q.val = if C = 1 then 0 else q.val
      split
      · have := q.isLt; omega
      · rfl)

end Cert.LibPlainDot

end
-- ==== Proof.BodyValue.lean ====
/-
  What one grid point's body computes, at the extended reals: each of the two kernel bodies multiplies its 512-row block of
  the left matrix by the whole right matrix. The changes of float format around the product are the identity there, the
  accumulator starts at zero, and the reshape of the right operand to its own shape changes nothing; so entry (p, q) of the
  stored block is  Σ_k x(p, k) · y(k, q).
-/
import proofs.«117333_g20358144983740_cont_8to1_1617_2_alg».proof.Proof.Gen.KernelIdeal.Skeleton
import proofs.«117333_g20358144983740_cont_8to1_1617_2_alg».proof.Proof.LibPlainDot
import Idealize.ShloMosaic.Lib.Pipeline.Value

noncomputable section

namespace Cert.KernelIdeal.KValue

open Idealize.ShloMosaic Idealize.ShloMosaic.ValueIdx Cert.KernelIdeal Cert.KernelIdeal.Gen

/-- Both bodies' dimension record is the plain "rows × shared, shared × columns" one. -/
theorem dims_eq : dot_S512x4096_S4096x1024_S512x1024_1_0_0_1_n_n = DotDims.plain 512 4096 1024 := rfl

/-- The first call's stored block, entry by entry. -/
theorem pay0_apply (x : FVec Ideal S512x4096 .f32) (y : FVec Ideal S4096x1024 .bf16) (j : S512x1024.Idx) :
    (k0_pay1 (F := Ideal) x y j : EReal) = ∑ k : Fin 4096, (x (ix2 (j 0) k) : EReal) * (y (ix2 k (j 1)) : EReal) := by
  unfold k0_pay1
  show FloatOps.matmul dot_S512x4096_S4096x1024_S512x1024_1_0_0_1_n_n none (truncf .bf16 x bitsLt_bf16_f32)
    (shapeCast S4096x1024 y shapeCasts_S4096x1024_S4096x1024) (constant S512x1024 .f32 0x00000000#32) j = _
  rw [dims_eq, shapeCast_self]
  exact Cert.LibPlainDot.matmul_plain_zero none (truncf .bf16 x bitsLt_bf16_f32) y j

/-- The second call's stored block, entry by entry. -/
theorem pay1_apply (x : FVec Ideal S512x4096 .f32) (y : FVec Ideal S4096x1024 .bf16) (j : S512x1024.Idx) :
    (k1_pay1 (F := Ideal) x y j : EReal) = ∑ k : Fin 4096, (x (ix2 (j 0) k) : EReal) * (y (ix2 k (j 1)) : EReal) := by
  unfold k1_pay1
  show FloatOps.matmul dot_S512x4096_S4096x1024_S512x1024_1_0_0_1_n_n none (truncf .bf16 x bitsLt_bf16_f32)
    (shapeCast S4096x1024 y shapeCasts_S4096x1024_S4096x1024) (constant S512x1024 .f32 0x00000000#32) j = _
  rw [dims_eq, shapeCast_self]
  exact Cert.LibPlainDot.matmul_plain_zero none (truncf .bf16 x bitsLt_bf16_f32) y j

end Cert.KernelIdeal.KValue

end
-- ==== Proof.Spec.lean ====
/-
  The specification: hypergraph message passing as two chained matrix products over the extended reals.

  For a 4096×4096 matrix a and a 4096×1024 matrix b,  (a · b)(p, q) = Σ_k a(p, k) · b(k, q),  a finite sum over the shared
  axis. The layer's result is  src · (tar · embs):  first every target hyperedge row gathers the embeddings, then every
  source row gathers those messages. Both programs compute exactly this bracketing, so no law of the extended reals beyond
  reading each product at an index is needed.
-/
import Idealize.ShloMosaic.PureOps.Ideal.Laws
import Idealize.ShloMosaic.Lib.ValueIdx

noncomputable section

namespace Cert.Spec

open Idealize.ShloMosaic Idealize.ShloMosaic.ValueIdx

/-- The product of a 4096×4096 matrix with a 4096×1024 matrix, entry by entry. -/
def prod (a : (⟨2, ![4096, 4096]⟩ : Shape).Idx → EReal) (b : (⟨2, ![4096, 1024]⟩ : Shape).Idx → EReal) :
    (⟨2, ![4096, 1024]⟩ : Shape).Idx → EReal :=
  fun i => ∑ k : Fin 4096, a (ix2 (i 0) k) * b (ix2 k (i 1))

/-- The layer: the source incidence matrix times (the target incidence matrix times the embeddings). -/
def layer (embs : (⟨2, ![4096, 1024]⟩ : Shape).Idx → EReal) (src tar : (⟨2, ![4096, 4096]⟩ : Shape).Idx → EReal) :
    (⟨2, ![4096, 1024]⟩ : Shape).Idx → EReal :=
  prod src (prod tar embs)

end Cert.Spec

end
-- ==== Proof.Call0Value.lean ====
/-
  The first call, read as one matrix product. Its grid has eight points; point t multiplies rows 512·t … 512·t + 511 of the
  left matrix (the point's block of window 0) by the whole right matrix (window 1, one block for every point) and writes
  the result to rows 512·t … 512·t + 511 of the output (window 2). So what point t writes back is block t of the product of
  the two arrays as the call finds them, the eight row blocks tile the output, and the output array ends holding the product.
-/
import proofs.«117333_g20358144983740_cont_8to1_1617_2_alg».proof.Proof.Gen.KernelIdeal.Frame
import proofs.«117333_g20358144983740_cont_8to1_1617_2_alg».proof.Proof.BodyValue
import proofs.«117333_g20358144983740_cont_8to1_1617_2_alg».proof.Proof.Spec

set_option maxRecDepth 16384

noncomputable section

namespace Cert.KernelIdeal.KValue

open Idealize.ShloMosaic Idealize.ShloMosaic.TcCoe Idealize.ShloMosaic.ValueIdx Idealize.SL.Sem
open Idealize.ShloMosaic.Pipeline (Dat Cfg Window)
open Cert.KernelIdeal Cert.KernelIdeal.Gen

-- the buffer contents when the call is entered
variable (V : (c : Dev nD) → (b : Ref sig .tc) → Buf (Elt Ideal) ((c : Thread nD τ).loc b))

/-- The left matrix as the call finds it. -/
abbrev lhs0 (c : Dev nD) : FVec Ideal S4096x4096 .f32 := V c main_arg2
/-- The right matrix as the call finds it. -/
abbrev rhs0 (c : Dev nD) : FVec Ideal S4096x1024 .bf16 := V c main_v0
/-- Point t's block of the left matrix, and the right matrix as staged. -/
abbrev lblk0 (c : Dev nD) (t : Fin cfg0.N) : FVec Ideal S512x4096 .f32 := iblk0 V c 0 t
abbrev rblk0 (c : Dev nD) (t : Fin cfg0.N) : FVec Ideal S4096x1024 .bf16 := iblk0 V c 1 t

theorem zero_off0 : (![0, 0] : Fin 2 → Nat) = fun _ => 0 := funext fun a => by fin_cases a <;> rfl

/-- The printed index maps over the grid: the left and the output windows sit at row block t, the right window at the
    origin. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- An entry of point t's left block is the left matrix's entry 512·t rows further down. -/
theorem lblk0_apply (c : Dev nD) (t : Fin cfg0.N) (p : Fin 512) (k : Fin 4096) (r : Fin 4096) (hr : r.val = t.val * 512 + p.val) :
    lblk0 V c t (ix2 p k) = lhs0 V c (ix2 r k) := by
  obtain ⟨e0, e1, -, -, -, -⟩ := idx_facts0 t
  show V c main_arg2 (((cfg0.win 0).blk t).view.emb (ix2 p k)) = V c main_arg2 (ix2 r k)
  congr 1
  funext a; apply Fin.ext
  match a with
  | ⟨0, _⟩ => show win0_0.index t (0 : Fin 2) * 512 + 1 * p.val = r.val; omega
  | ⟨1, _⟩ => show win0_0.index t (1 : Fin 2) * 4096 + 1 * k.val = k.val; omega

/-- The staged right matrix is the right matrix. -/
theorem rblk0_apply (c : Dev nD) (t : Fin cfg0.N) (k : Fin 4096) (q : Fin 1024) :
    rblk0 V c t (ix2 k q) = rhs0 V c (ix2 k q) := by
  obtain ⟨-, -, e2, e3, -, -⟩ := idx_facts0 t
  show V c main_v0 (((cfg0.win 1).blk t).view.emb (ix2 k q)) = V c main_v0 (ix2 k q)
  congr 1
  funext a; apply Fin.ext
  match a with
  | ⟨0, _⟩ => show win0_1.index t (0 : Fin 2) * 4096 + 1 * k.val = k.val; omega
  | ⟨1, _⟩ => show win0_1.index t (1 : Fin 2) * 1024 + 1 * q.val = q.val; omega

/-- What point t writes back is block t of the product. -/
theorem flushed0_eq (c : Dev nD) (t : Fin cfg0.N) :
    (dat0 V c).flushed 2 t = ((cfg0.win 2).blk t).view.read (Elt Ideal) (Cert.Spec.prod (lhs0 V c) (rhs0 V c)) := by
  show (cfg0.win 2).cut (grid0.coords t) ((dat0 V c).after 2 t) = _
  rw [after0_2]
  unfold out0_2
  rw [View.canon_unit_zero zero_off0]
  simp only [View.ld_unit_zero (S := S512x4096) zero_off0, View.ld_unit_zero (S := S4096x1024) zero_off0]
  obtain ⟨-, -, -, -, e4, e5⟩ := idx_facts0 t
  funext j
  obtain ⟨p, q, rfl⟩ : ∃ (p : Fin 512) (q : Fin 1024), j = ix2 p q := ⟨j 0, j 1, eq_ix2 j⟩
  have ht8 : t.val < 8 := lt_of_lt_of_eq t.isLt N_0
  have hr : t.val * 512 + p.val < 4096 := by have := p.isLt; omega
  have hemb : ((cfg0.win 2).blk t).view.emb (ix2 p q) = ix2 (⟨t.val * 512 + p.val, hr⟩ : Fin 4096) q := by
    funext a; apply Fin.ext
    match a with
    | ⟨0, _⟩ => show win0_2.index t (0 : Fin 2) * 512 + 1 * p.val = t.val * 512 + p.val; omega
    | ⟨1, _⟩ => show win0_2.index t (1 : Fin 2) * 1024 + 1 * q.val = q.val; omega
  show k0_pay1 (F := Ideal) (lblk0 V c t) (rblk0 V c t) (ix2 p q)
    = Cert.Spec.prod (lhs0 V c) (rhs0 V c) (((cfg0.win 2).blk t).view.emb (ix2 p q))
  rw [hemb]
  refine (pay0_apply (lblk0 V c t) (rblk0 V c t) (ix2 p q)).trans ?_
  unfold Cert.Spec.prod
  refine Finset.sum_congr rfl fun k _ => ?_
  exact congrArg₂ (· * ·) (lblk0_apply V c t p k ⟨t.val * 512 + p.val, hr⟩ rfl) (rblk0_apply V c t k q)

/-- An index of the output is in point t's block iff its row is one of that block's 512 rows. -/
theorem mem_blk0 (t : Fin cfg0.N) (i : S4096x1024.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v1).slice (win0_2.rect t)).set ↔ _
  rw [View.set_slice_whole, Rect.mem_set_unit]
  exact Iff.rfl

/-- Row r of the output is covered by point r / 512. -/
theorem cover0 (i : S4096x1024.Idx) :
    ∃ t : Fin cfg0.N, (cfg0.win 2).flush t = true ∧ i ∈ ((cfg0.win 2).blk t).view.set := by
  have hi0 : (i 0).val < 4096 := (i 0).isLt
  have hi1 : (i 1).val < 1024 := (i 1).isLt
  have ht : (i 0).val / 512 < cfg0.N := by rw [show cfg0.N = 8 from N_0]; omega
  obtain ⟨-, -, -, -, e4, e5⟩ := idx_facts0 ⟨(i 0).val / 512, ht⟩
  refine ⟨⟨(i 0).val / 512, ht⟩, flush0_2 _, ?_⟩
  rw [mem_blk0]
  intro a
  match a with
  | ⟨0, _⟩ =>
    show win0_2.index ⟨(i 0).val / 512, ht⟩ (0 : Fin 2) * 512 ≤ (i 0).val ∧ (i 0).val < win0_2.index ⟨(i 0).val / 512, ht⟩ (0 : Fin 2) * 512 + 512
    rw [e4]; show (i 0).val / 512 * 512 ≤ (i 0).val ∧ (i 0).val < (i 0).val / 512 * 512 + 512; omega
  | ⟨1, _⟩ =>
    show win0_2.index ⟨(i 0).val / 512, ht⟩ (1 : Fin 2) * 1024 ≤ (i 1).val ∧ (i 1).val < win0_2.index ⟨(i 0).val / 512, ht⟩ (1 : Fin 2) * 1024 + 1024
    rw [e5]; omega

/-- The output array after the call is the product of the two arrays the call found. -/
theorem final0 (c : Dev nD) : (dat0 V c).arrAt 2 cfg0.N = Cert.Spec.prod (lhs0 V c) (rhs0 V c) :=
  (dat0 V c).arrAt_eq_of_cover 2 (Cert.Spec.prod (lhs0 V c) (rhs0 V c)) (fun t _ => flushed0_eq V c t) (cover0)

end Cert.KernelIdeal.KValue

end
-- ==== Proof.Call1Value.lean ====
/-
  The second call, read as one matrix product. Its grid has eight points; point t multiplies rows 512·t … 512·t + 511 of the
  left matrix (the point's block of window 0) by the whole right matrix (window 1, one block for every point) and writes
  the result to rows 512·t … 512·t + 511 of the output (window 2). So what point t writes back is block t of the product of
  the two arrays as the call finds them, the eight row blocks tile the output, and the output array ends holding the product.
-/
import proofs.«117333_g20358144983740_cont_8to1_1617_2_alg».proof.Proof.Gen.KernelIdeal.Frame
import proofs.«117333_g20358144983740_cont_8to1_1617_2_alg».proof.Proof.BodyValue
import proofs.«117333_g20358144983740_cont_8to1_1617_2_alg».proof.Proof.Spec

set_option maxRecDepth 16384

noncomputable section

namespace Cert.KernelIdeal.KValue

open Idealize.ShloMosaic Idealize.ShloMosaic.TcCoe Idealize.ShloMosaic.ValueIdx Idealize.SL.Sem
open Idealize.ShloMosaic.Pipeline (Dat Cfg Window)
open Cert.KernelIdeal Cert.KernelIdeal.Gen

-- the buffer contents when the call is entered
variable (V : (c : Dev nD) → (b : Ref sig .tc) → Buf (Elt Ideal) ((c : Thread nD τ).loc b))

/-- The left matrix as the call finds it. -/
abbrev lhs1 (c : Dev nD) : FVec Ideal S4096x4096 .f32 := V c main_arg1
/-- The right matrix as the call finds it. -/
abbrev rhs1 (c : Dev nD) : FVec Ideal S4096x1024 .bf16 := V c main_v1
/-- Point t's block of the left matrix, and the right matrix as staged. -/
abbrev lblk1 (c : Dev nD) (t : Fin cfg1.N) : FVec Ideal S512x4096 .f32 := iblk1 V c 0 t
abbrev rblk1 (c : Dev nD) (t : Fin cfg1.N) : FVec Ideal S4096x1024 .bf16 := iblk1 V c 1 t

theorem zero_off1 : (![0, 0] : Fin 2 → Nat) = fun _ => 0 := funext fun a => by fin_cases a <;> rfl

/-- The printed index maps over the grid: the left and the output windows sit at row block t, the right window at the
    origin. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- An entry of point t's left block is the left matrix's entry 512·t rows further down. -/
theorem lblk1_apply (c : Dev nD) (t : Fin cfg1.N) (p : Fin 512) (k : Fin 4096) (r : Fin 4096) (hr : r.val = t.val * 512 + p.val) :
    lblk1 V c t (ix2 p k) = lhs1 V c (ix2 r k) := by
  obtain ⟨e0, e1, -, -, -, -⟩ := idx_facts1 t
  show V c main_arg1 (((cfg1.win 0).blk t).view.emb (ix2 p k)) = V c main_arg1 (ix2 r k)
  congr 1
  funext a; apply Fin.ext
  match a with
  | ⟨0, _⟩ => show win1_0.index t (0 : Fin 2) * 512 + 1 * p.val = r.val; omega
  | ⟨1, _⟩ => show win1_0.index t (1 : Fin 2) * 4096 + 1 * k.val = k.val; omega

/-- The staged right matrix is the right matrix. -/
theorem rblk1_apply (c : Dev nD) (t : Fin cfg1.N) (k : Fin 4096) (q : Fin 1024) :
    rblk1 V c t (ix2 k q) = rhs1 V c (ix2 k q) := by
  obtain ⟨-, -, e2, e3, -, -⟩ := idx_facts1 t
  show V c main_v1 (((cfg1.win 1).blk t).view.emb (ix2 k q)) = V c main_v1 (ix2 k q)
  congr 1
  funext a; apply Fin.ext
  match a with
  | ⟨0, _⟩ => show win1_1.index t (0 : Fin 2) * 4096 + 1 * k.val = k.val; omega
  | ⟨1, _⟩ => show win1_1.index t (1 : Fin 2) * 1024 + 1 * q.val = q.val; omega

/-- What point t writes back is block t of the product. -/
theorem flushed1_eq (c : Dev nD) (t : Fin cfg1.N) :
    (dat1 V c).flushed 2 t = ((cfg1.win 2).blk t).view.read (Elt Ideal) (Cert.Spec.prod (lhs1 V c) (rhs1 V c)) := by
  show (cfg1.win 2).cut (grid1.coords t) ((dat1 V c).after 2 t) = _
  rw [after1_2]
  unfold out1_2
  rw [View.canon_unit_zero zero_off1]
  simp only [View.ld_unit_zero (S := S512x4096) zero_off1, View.ld_unit_zero (S := S4096x1024) zero_off1]
  obtain ⟨-, -, -, -, e4, e5⟩ := idx_facts1 t
  funext j
  obtain ⟨p, q, rfl⟩ : ∃ (p : Fin 512) (q : Fin 1024), j = ix2 p q := ⟨j 0, j 1, eq_ix2 j⟩
  have ht8 : t.val < 8 := lt_of_lt_of_eq t.isLt N_1
  have hr : t.val * 512 + p.val < 4096 := by have := p.isLt; omega
  have hemb : ((cfg1.win 2).blk t).view.emb (ix2 p q) = ix2 (⟨t.val * 512 + p.val, hr⟩ : Fin 4096) q := by
    funext a; apply Fin.ext
    match a with
    | ⟨0, _⟩ => show win1_2.index t (0 : Fin 2) * 512 + 1 * p.val = t.val * 512 + p.val; omega
    | ⟨1, _⟩ => show win1_2.index t (1 : Fin 2) * 1024 + 1 * q.val = q.val; omega
  show k1_pay1 (F := Ideal) (lblk1 V c t) (rblk1 V c t) (ix2 p q)
    = Cert.Spec.prod (lhs1 V c) (rhs1 V c) (((cfg1.win 2).blk t).view.emb (ix2 p q))
  rw [hemb]
  refine (pay1_apply (lblk1 V c t) (rblk1 V c t) (ix2 p q)).trans ?_
  unfold Cert.Spec.prod
  refine Finset.sum_congr rfl fun k _ => ?_
  exact congrArg₂ (· * ·) (lblk1_apply V c t p k ⟨t.val * 512 + p.val, hr⟩ rfl) (rblk1_apply V c t k q)

/-- An index of the output is in point t's block iff its row is one of that block's 512 rows. -/
theorem mem_blk1 (t : Fin cfg1.N) (i : S4096x1024.Idx) :
    i ∈ ((cfg1.win 2).blk t).view.set ↔ ∀ a : Fin 2, win1_2.index t a * S512x1024.size a ≤ (i a).val ∧ (i a).val < win1_2.index t a * S512x1024.size a + S512x1024.size a := by
  show i ∈ ((View.whole main_v2).slice (win1_2.rect t)).set ↔ _
  rw [View.set_slice_whole, Rect.mem_set_unit]
  exact Iff.rfl

/-- Row r of the output is covered by point r / 512. -/
theorem cover1 (i : S4096x1024.Idx) :
    ∃ t : Fin cfg1.N, (cfg1.win 2).flush t = true ∧ i ∈ ((cfg1.win 2).blk t).view.set := by
  have hi0 : (i 0).val < 4096 := (i 0).isLt
  have hi1 : (i 1).val < 1024 := (i 1).isLt
  have ht : (i 0).val / 512 < cfg1.N := by rw [show cfg1.N = 8 from N_1]; omega
  obtain ⟨-, -, -, -, e4, e5⟩ := idx_facts1 ⟨(i 0).val / 512, ht⟩
  refine ⟨⟨(i 0).val / 512, ht⟩, flush1_2 _, ?_⟩
  rw [mem_blk1]
  intro a
  match a with
  | ⟨0, _⟩ =>
    show win1_2.index ⟨(i 0).val / 512, ht⟩ (0 : Fin 2) * 512 ≤ (i 0).val ∧ (i 0).val < win1_2.index ⟨(i 0).val / 512, ht⟩ (0 : Fin 2) * 512 + 512
    rw [e4]; show (i 0).val / 512 * 512 ≤ (i 0).val ∧ (i 0).val < (i 0).val / 512 * 512 + 512; omega
  | ⟨1, _⟩ =>
    show win1_2.index ⟨(i 0).val / 512, ht⟩ (1 : Fin 2) * 1024 ≤ (i 1).val ∧ (i 1).val < win1_2.index ⟨(i 0).val / 512, ht⟩ (1 : Fin 2) * 1024 + 1024
    rw [e5]; omega

/-- The output array after the call is the product of the two arrays the call found. -/
theorem final1 (c : Dev nD) : (dat1 V c).arrAt 2 cfg1.N = Cert.Spec.prod (lhs1 V c) (rhs1 V c) :=
  (dat1 V c).arrAt_eq_of_cover 2 (Cert.Spec.prod (lhs1 V c) (rhs1 V c)) (fun t _ => flushed1_eq V c t) (cover1)

end Cert.KernelIdeal.KValue

end
-- ==== Proof.KernelValue.lean ====
/-
  The kernel program's result is the layer. The host first casts the embeddings to bf16, which over the extended reals
  changes nothing. The first call leaves  tar · embs  in its output array and touches nothing else the second call reads.
  The second call finds the source matrix as launched and that product as its right matrix, and leaves
  src · (tar · embs)  in the result array: the specification's bracketing.
-/
import proofs.«117333_g20358144983740_cont_8to1_1617_2_alg».proof.Proof.RunResult
import proofs.«117333_g20358144983740_cont_8to1_1617_2_alg».proof.Proof.Call0Value
import proofs.«117333_g20358144983740_cont_8to1_1617_2_alg».proof.Proof.Call1Value
import Idealize.ShloMosaic.Lib.StableHlo.Run

set_option maxRecDepth 16384

noncomputable section

namespace Cert.KernelIdeal.KValue

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-- The first call finds the target matrix as launched: the host's one operation writes another buffer. -/
theorem entry0_lhs (c : Dev nD) : lhs0 (V1 m ρ) c = m ((c : Thread nD τ).loc main_arg2) := by
  show StableHlo.after hostOps0 (W0 m ρ c) (Proc.devRef .tc main_arg2) = _
  after_results

/-- The first call finds, as its right matrix, the embeddings: the host's cast to bf16 is the identity here. -/
theorem entry0_rhs (c : Dev nD) : rhs0 (V1 m ρ) c = m ((c : Thread nD τ).loc main_arg0) := by
  show StableHlo.after hostOps0 (W0 m ρ c) (Proc.devRef .tc main_v0) = _
  after_results
  rfl

/-- The second call finds the source matrix as launched: the first call does not have it among its arrays, and the host
    operation does not write it. -/
theorem entry1_lhs (c : Dev nD) : lhs1 (V2 m ρ) c = m ((c : Thread nD τ).loc main_arg1) :=
  ((W3_arr m ρ c 0).trans (((dat1 (V2 m ρ) c).arrAt_in 0 rfl _).trans (A_eq1 (V2 m ρ) c 0))).symm.trans (W3_main_arg1 m ρ c)

/-- The second call finds, as its right matrix, what the first call's write-backs left: the product of the target matrix
    and the embeddings. -/
theorem entry1_rhs (c : Dev nD) :
    rhs1 (V2 m ρ) c = Cert.Spec.prod (m ((c : Thread nD τ).loc main_arg2)) (m ((c : Thread nD τ).loc main_arg0)) :=
  (W2_arr m ρ c 2).trans ((final0 (V1 m ρ) c).trans (congrArg₂ Cert.Spec.prod (entry0_lhs m ρ c) (entry0_rhs m ρ c)))

/-- The result array after the second call's write-backs is the layer of the launch contents. -/
theorem result_eq (c : Dev nD) :
    V3 m ρ c main_v2 = Cert.Spec.layer (m ((c : Thread nD τ).loc main_arg0)) (m ((c : Thread nD τ).loc main_arg1)) (m ((c : Thread nD τ).loc main_arg2)) :=
  (W3_arr m ρ c 2).trans ((final1 (V2 m ρ) c).trans (congrArg₂ Cert.Spec.prod (entry1_lhs m ρ c) (entry1_rhs m ρ c)))

/-- The kernel program's run: it terminates, nothing faulting, with the result array at the layer of the arguments and the
    arguments unchanged. -/
theorem run : θ_run defs (onTc (τ := τ) (main (F := Ideal))) ⟨m, fun _ => 0, ρ⟩ (fun r => ∀ c : Dev nD,
      r.2.mem ((c.tc : Thread nD τ).loc main_v2)
        = Cert.Spec.layer (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩) (run_result m ρ)

end Cert.KernelIdeal.KValue

end
-- ==== Proof.RefValue.lean ====
/-
  The reference computes the specification: its two host products, each read at an index as the sum over the contracted
  axis, are the two products of the layer, in the same bracketing.
-/
import proofs.«117333_g20358144983740_cont_8to1_1617_2_alg».proof.Proof.Gen.ReferenceIdeal.Run
import proofs.«117333_g20358144983740_cont_8to1_1617_2_alg».proof.Proof.LibPlainDot
import proofs.«117333_g20358144983740_cont_8to1_1617_2_alg».proof.Proof.Spec

noncomputable section

namespace Cert.ReferenceIdeal.RefValue

open Idealize.ShloMosaic Idealize.ShloMosaic.ValueIdx Cert.ReferenceIdeal

/-- The reference's dimension record is the plain "rows × shared, shared × columns" one. -/
theorem dims_eq : dot_S4096x4096_S4096x1024_S4096x1024_1_0_0_1_n_n = DotDims.plain 4096 4096 1024 := rfl

/-- One host product is the specification's product. -/
theorem hostProd_eq (a : FVec Ideal S4096x4096 .f32) (b : FVec Ideal S4096x1024 .f32) :
    Host.dotGeneral dot_S4096x4096_S4096x1024_S4096x1024_1_0_0_1_n_n none a b = Cert.Spec.prod a b := by
  funext i
  rw [dims_eq]
  exact Cert.LibPlainDot.dotGeneral_plain none .single a b i

/-- The reference's composed term is the layer. -/
theorem result_eq (embs : FVec Ideal S4096x1024 .f32) (src tar : FVec Ideal S4096x4096 .f32) :
    Host.dotGeneral dot_S4096x4096_S4096x1024_S4096x1024_1_0_0_1_n_n none src
        (Host.dotGeneral dot_S4096x4096_S4096x1024_S4096x1024_1_0_0_1_n_n none tar embs)
      = Cert.Spec.layer embs src tar := by
  rw [hostProd_eq tar embs, hostProd_eq src]
  rfl

end Cert.ReferenceIdeal.RefValue

end
-- ==== Proof.lean ====
/-
  Hypergraph message passing,  out = src · (tar · embs),  as two Pallas matrix-product calls against two jnp matmuls.

  Over the extended reals both programs compute, entry by entry,
      out(p, q) = Σ_k src(p, k) · ( Σ_j tar(k, j) · embs(j, q) ),
  in this bracketing on both sides. The kernel casts operands to bf16 and its intermediate product to bf16; a change of
  float format is the identity there. Each call tiles its output into eight blocks of 512 rows, and a block of a product
  is the product of the left matrix's row block with the whole right matrix, so tiling changes nothing. No law of the
  extended reals is used beyond reading each product at an index, so finiteness of the inputs is never needed.

  The three frames: the two kernel programs' are generated; the reference's is its generated run with the result dropped.
  The idealization rewrote nothing, so the kernel is its own idealization. The value claim joins the kernel program's run
  (the result array named by following the buffers through the host cast and the two calls) to the reference's run (its two
  host products read at an index), both at the one specification `Cert.Spec.layer`.
-/
import proofs.«117333_g20358144983740_cont_8to1_1617_2_alg».proof.Defs
import proofs.«117333_g20358144983740_cont_8to1_1617_2_alg».proof.Proof.Gen.Kernel
import proofs.«117333_g20358144983740_cont_8to1_1617_2_alg».proof.Proof.Gen.Kernel.Skeleton
import proofs.«117333_g20358144983740_cont_8to1_1617_2_alg».proof.Proof.Gen.Kernel.Launch
import proofs.«117333_g20358144983740_cont_8to1_1617_2_alg».proof.Proof.Gen.Kernel.Points
import proofs.«117333_g20358144983740_cont_8to1_1617_2_alg».proof.Proof.Gen.Kernel.Frame
import proofs.«117333_g20358144983740_cont_8to1_1617_2_alg».proof.Proof.Gen.KernelIdeal
import proofs.«117333_g20358144983740_cont_8to1_1617_2_alg».proof.Proof.Gen.KernelIdeal.Skeleton
import proofs.«117333_g20358144983740_cont_8to1_1617_2_alg».proof.Proof.Gen.KernelIdeal.Launch
import proofs.«117333_g20358144983740_cont_8to1_1617_2_alg».proof.Proof.Gen.KernelIdeal.Points
import proofs.«117333_g20358144983740_cont_8to1_1617_2_alg».proof.Proof.Gen.KernelIdeal.Frame
import proofs.«117333_g20358144983740_cont_8to1_1617_2_alg».proof.Proof.Gen.ReferenceIdeal
import proofs.«117333_g20358144983740_cont_8to1_1617_2_alg».proof.Proof.Gen.Pre_finite_inputs
import proofs.«117333_g20358144983740_cont_8to1_1617_2_alg».proof.Proof.Gen.ReferenceIdeal.Run
import proofs.«117333_g20358144983740_cont_8to1_1617_2_alg».proof.Proof.KernelValue
import proofs.«117333_g20358144983740_cont_8to1_1617_2_alg».proof.Proof.RefValue
import Idealize.ShloMosaic.Adequacy
import Idealize.ShloMosaic.Init

noncomputable section

namespace Cert.Proof

open Idealize.ShloMosaic Idealize.SL.Sem

/-- The kernel program runs and leaves its arguments unchanged. -/
theorem frame_k : Cert.frame_Kernel := fun m ρ _ => Cert.Kernel.Gen.frame m ρ
/-- So does its idealization. -/
theorem frame_ki : Cert.frame_KernelIdeal := fun m ρ _ => Cert.KernelIdeal.Gen.frame m ρ
/-- So does the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the layer of the arguments in their result arrays, so from agreeing arguments they end with
    equal results. -/
theorem algebraic : Cert.algebraic_KernelIdeal_ReferenceIdeal := by
  intro m ρ m' ρ' _ hagree
  refine ⟨fun c => Cert.Spec.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.ReferenceIdeal.RefValue.result_eq _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
